-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩

class Facts : Prop where
  bcast_S_S136x131072 : S_.BroadcastsInDim S136x131072 (![] : Fin 0 → Fin S136x131072.rank)
  reducesTo_S136x131072_S_d0_1 : S136x131072.ReducesTo [0, 1] S_
  h_S_ : 0 < S_.numel
  bcast_S_S3x131072 : S_.BroadcastsInDim S3x131072 (![] : Fin 0 → Fin S3x131072.rank)
  reducesTo_S3x131072_S_d0_1 : S3x131072.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  main_v18

def fn {F : FTy → Type} [FloatOps F] (main_arg0 : FVec F S136x131072 .f32) (main_arg1 : FVec F S136x131072 .f32) (main_arg2 : FVec F S3x131072 .f32) (main_arg3 : IVec S6x131072 32) (main_arg4 : FVec F S6 .f32) : IVec S_ 1 :=
  let main_v0 : FVec F S136x131072 .f32 := Host.absf main_arg0
  let main_cst : FVec F S_ .f32 := constant S_ .f32 0x7F800000#32
  let main_v1 : FVec F S136x131072 .f32 := broadcastInDim S136x131072 ![] bcast_S_S136x131072 main_cst
  let main_v2 : IVec S136x131072 1 := cmpf .olt main_v0 main_v1
  let main_c : IVec S_ 1 := constantI S_ 1 1#1
  let main_v3 : IVec S_ 1 := (fun x v => Host.reduce IntOp.andi x v reducesTo_S136x131072_S_d0_1 h_S_) main_v2 main_c
  let main_v4 : FVec F S136x131072 .f32 := Host.absf main_arg1
  let main_cst_0 : FVec F S_ .f32 := constant S_ .f32 0x7F800000#32
  let main_v5 : FVec F S136x131072 .f32 := broadcastInDim S136x131072 ![] bcast_S_S136x131072 main_cst_0
  let main_v6 : IVec S136x131072 1 := cmpf .olt main_v4 main_v5
  let main_c_1 : IVec S_ 1 := constantI S_ 1 1#1
  let main_v7 : IVec S_ 1 := (fun x v => Host.reduce IntOp.andi x v reducesTo_S136x131072_S_d0_1 h_S_) main_v6 main_c_1
  let main_v8 : IVec S_ 1 := andi main_v3 main_v7
  let main_v9 : FVec F S3x131072 .f32 := Host.absf main_arg2
  let main_cst_2 : FVec F S_ .f32 := constant S_ .f32 0x7F800000#32
  let main_v10 : FVec F S3x131072 .f32 := broadcastInDim S3x131072 ![] bcast_S_S3x131072 main_cst_2
  let main_v11 : IVec S3x131072 1 := cmpf .olt main_v9 main_v10
  let main_c_3 : IVec S_ 1 := constantI S_ 1 1#1
  let main_v12 : IVec S_ 1 := (fun x v => Host.reduce IntOp.andi x v reducesTo_S3x131072_S_d0_1 h_S_) main_v11 main_c_3
  let main_v13 : IVec S_ 1 := andi main_v8 main_v12
  let main_v14 : FVec F S6 .f32 := Host.absf main_arg4
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_v13 main_v16
-- ==== Kernel.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩
abbrev S6x1 : Shape := ⟨2, ![6, 1]⟩
abbrev S1x1 : Shape := ⟨2, ![1, 1]⟩
abbrev S136x4096 : Shape := ⟨2, ![136, 4096]⟩
abbrev S3x4096 : Shape := ⟨2, ![3, 4096]⟩
abbrev S6x4096 : Shape := ⟨2, ![6, 4096]⟩
abbrev S4096 : Shape := ⟨1, ![4096]⟩
abbrev S1x4096 : Shape := ⟨2, ![1, 4096]⟩
abbrev S136 : Shape := ⟨1, ![136]⟩
abbrev S136x1 : Shape := ⟨2, ![136, 1]⟩
abbrev S1 : Shape := ⟨1, ![1]⟩

abbrev nBuf : Space → Nat
  | .hbm => 12
  | .vmem => 11
  | .smem => 0
  | _ => 0

abbrev bufTy : (tb : Table) → Fin (tcTables nBuf tb) → BufTy
  | .hbm, ⟨0, _⟩ => ⟨S136x131072, .f32⟩
  | .hbm, ⟨1, _⟩ => ⟨S136x131072, .f32⟩
  | .hbm, ⟨2, _⟩ => ⟨S3x131072, .f32⟩
  | .hbm, ⟨3, _⟩ => ⟨S6x131072, .i32⟩
  | .hbm, ⟨4, _⟩ => ⟨S6, .f32⟩
  | .hbm, ⟨5, _⟩ => ⟨S_, .f32⟩
  | .hbm, ⟨6, _⟩ => ⟨S_, .f32⟩
  | .hbm, ⟨7, _⟩ => ⟨S6, .f32⟩
  | .hbm, ⟨8, _⟩ => ⟨S6, .f32⟩
  | .hbm, ⟨9, _⟩ => ⟨S6x1, .f32⟩
  | .hbm, ⟨10, _⟩ => ⟨S1x1, .f32⟩
  | .hbm, ⟨11, _⟩ => ⟨S_, .f32⟩
  | .local _ .vmem, ⟨0, _⟩ => ⟨S6x1, .f32⟩
  | .local _ .vmem, ⟨1, _⟩ => ⟨S136x4096, .f32⟩
  | .local _ .vmem, ⟨2, _⟩ => ⟨S136x4096, .f32⟩
  | .local _ .vmem, ⟨3, _⟩ => ⟨S136x4096, .f32⟩
  | .local _ .vmem, ⟨4, _⟩ => ⟨S136x4096, .f32⟩
  | .local _ .vmem, ⟨5, _⟩ => ⟨S3x4096, .f32⟩
  | .local _ .vmem, ⟨6, _⟩ => ⟨S3x4096, .f32⟩
  | .local _ .vmem, ⟨7, _⟩ => ⟨S6x4096, .i32⟩
  | .local _ .vmem, ⟨8, _⟩ => ⟨S6x4096, .i32⟩
  | .local _ .vmem, ⟨9, _⟩ => ⟨S1x1, .f32⟩
  | .local _ .vmem, ⟨10, _⟩ => ⟨S1x1, .f32⟩
  | _, _ => ⟨S136x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S136x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  reducesTo_S6_S_d0 : S6.ReducesTo [0] S_
  h_S_ : 0 < S_.numel
  bcast_S_S6 : S_.BroadcastsInDim S6 (![] : Fin 0 → Fin S6.rank)
  shapeCasts_S6_S6x1 : S6.ShapeCasts S6x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6x4096_S6x4096_0_0 : ∀ a, (![0, 0] : Fin 2 → Nat) a + S6x4096.size a ≤ S6x4096.size a
  h_S6x4096 : 0 < S6x4096.numel
  natLt_1_32 : 1 < 32
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x4096 : S6x1.Broadcasts S6x4096
  reduces_S6x4096_S4096 : S6x4096.Reduces [0] S4096
  shapeCasts_S4096_S1x4096 : S4096.ShapeCasts S1x4096
  inb_S3x4096_S3x4096_0_0 : ∀ a, (![0, 0] : Fin 2 → Nat) a + S3x4096.size a ≤ S3x4096.size a
  h_S3x4096 : 0 < S3x4096.numel
  reduces_S3x4096_S4096 : S3x4096.Reduces [0] S4096
  inb_S136x4096_S136x4096_0_0 : ∀ a, (![0, 0] : Fin 2 → Nat) a + S136x4096.size a ≤ S136x4096.size a
  h_S136x4096 : 0 < S136x4096.numel
  broadcasts_S1x4096_S136x4096 : S1x4096.Broadcasts S136x4096
  reduces_S136x4096_S136 : S136x4096.Reduces [1] S136
  shapeCasts_S136_S136x1 : S136.ShapeCasts S136x1
  reduces_S136x1_S1 : S136x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6x1.size a ≤ S6x1.size a
  hwx0_0 : ∀ i : grid0.Coords, EltTy.bits .f32 = 32 ∨ (Rect.block (s := S6x1) S6x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S136x4096.size a ≤ S136x131072.size a
  hwx0_1 : ∀ i : grid0.Coords, EltTy.bits .f32 = 32 ∨ (Rect.block (s := S136x131072) S136x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S136x4096.size a ≤ S136x131072.size a
  hwx0_2 : ∀ i : grid0.Coords, EltTy.bits .f32 = 32 ∨ (Rect.block (s := S136x131072) S136x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4096.size a ≤ S3x131072.size a
  hwx0_3 : ∀ i : grid0.Coords, EltTy.bits .f32 = 32 ∨ (Rect.block (s := S3x131072) S3x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x4096.size a ≤ S6x131072.size a
  hwx0_4 : ∀ i : grid0.Coords, EltTy.bits .i32 = 32 ∨ (Rect.block (s := S6x131072) S6x4096.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v3) S6x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S136x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S136x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S6x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩
abbrev S6x1 : Shape := ⟨2, ![6, 1]⟩
abbrev S131072 : Shape := ⟨1, ![131072]⟩
abbrev S1x131072 : Shape := ⟨2, ![1, 131072]⟩

abbrev nBuf : Space → Nat
  | .hbm => 34
  | .vmem => 0
  | .smem => 0
  | _ => 0

abbrev bufTy : (tb : Table) → Fin (tcTables nBuf tb) → BufTy
  | .hbm, ⟨0, _⟩ => ⟨S136x131072, .f32⟩
  | .hbm, ⟨1, _⟩ => ⟨S136x131072, .f32⟩
  | .hbm, ⟨2, _⟩ => ⟨S3x131072, .f32⟩
  | .hbm, ⟨3, _⟩ => ⟨S6x131072, .i32⟩
  | .hbm, ⟨4, _⟩ => ⟨S6, .f32⟩
  | .hbm, ⟨5, _⟩ => ⟨S_, .f32⟩
  | .hbm, ⟨6, _⟩ => ⟨S_, .f32⟩
  | .hbm, ⟨7, _⟩ => ⟨S6, .f32⟩
  | .hbm, ⟨8, _⟩ => ⟨S6, .f32⟩
  | .hbm, ⟨9, _⟩ => ⟨S_, .i32⟩
  | .hbm, ⟨10, _⟩ => ⟨S6x131072, .i32⟩
  | .hbm, ⟨11, _⟩ => ⟨S6x131072, .i1⟩
  | .hbm, ⟨12, _⟩ => ⟨S6x131072, .f32⟩
  | .hbm, ⟨13, _⟩ => ⟨S6x1, .f32⟩
  | .hbm, ⟨14, _⟩ => ⟨S6x131072, .f32⟩
  | .hbm, ⟨15, _⟩ => ⟨S6x131072, .f32⟩
  | .hbm, ⟨16, _⟩ => ⟨S_, .f32⟩
  | .hbm, ⟨17, _⟩ => ⟨S131072, .f32⟩
  | .hbm, ⟨18, _⟩ => ⟨S3x131072, .f32⟩
  | .hbm, ⟨19, _⟩ => ⟨S_, .f32⟩
  | .hbm, ⟨20, _⟩ => ⟨S3x131072, .f32⟩
  | .hbm, ⟨21, _⟩ => ⟨S3x131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S1x131072, .f32⟩
  | .hbm, ⟨26, _⟩ => ⟨S136x131072, .f32⟩
  | .hbm, ⟨27, _⟩ => ⟨S136x131072, .f32⟩
  | .hbm, ⟨28, _⟩ => ⟨S136x131072, .f32⟩
  | .hbm, ⟨29, _⟩ => ⟨S136x131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S136x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S6_S_d0 : S6.ReducesTo [0] S_
  h_S_ : 0 < S_.numel
  bcast_S_S6 : S_.BroadcastsInDim S6 (![] : Fin 0 → Fin S6.rank)
  bcast_S_S6x131072 : S_.BroadcastsInDim S6x131072 (![] : Fin 0 → Fin S6x131072.rank)
  bcast_S6_S6x1_0 : S6.BroadcastsInDim S6x1 (![0] : Fin 1 → Fin S6x1.rank)
  bcast_S6x1_S6x131072_0_1 : S6x1.BroadcastsInDim S6x131072 (![0, 1] : Fin 2 → Fin S6x131072.rank)
  reducesTo_S6x131072_S131072_d0 : S6x131072.ReducesTo [0] S131072
  bcast_S_S3x131072 : S_.BroadcastsInDim S3x131072 (![] : Fin 0 → Fin S3x131072.rank)
  reducesTo_S3x131072_S131072_d0 : S3x131072.ReducesTo [0] S131072
  bcast_S131072_S1x131072_1 : S131072.BroadcastsInDim S1x131072 (![1] : Fin 1 → Fin S1x131072.rank)
  bcast_S1x131072_S136x131072_0_1 : S1x131072.BroadcastsInDim S136x131072 (![0, 1] : Fin 2 → Fin S136x131072.rank)
  reducesTo_S136x131072_S_d0_1 : S136x131072.ReducesTo [0, 1] S_

variable [Facts₀]

class Facts : Prop extends Facts₀ where

variable [Facts]
-- ==== Proof.Pieces.lean ====
/-
  What each of the three control cases of the kernel body leaves in the accumulator and in the output block, as
  values of the step's loads.

  First step (reset taken): the accumulator is zeroed, read back, and the step's sum is added to that zero; the
  output block is a copy of the new accumulator. Middle steps: the same over what the previous step left, no reset.
  Last step: as a middle step, and then the output block is overwritten by its own contents divided by the number of
  entries. Each buffer is one element wide and every store covers it whole, so the last store to a buffer decides its
  contents, and a load after a store reads that store's value.
-/
import proofs.«166747_j17970143166491_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A load of the whole buffer after a list of stores whose LAST store covered the whole buffer reads that store's
    value, whatever the earlier stores were. -/
theorem readCov_last_whole {Val : EltTy → Type} [∀ e, Nonempty (Val e)] {S : Shape} {e : EltTy} {sg : RefSig} {κ : Kind}
    {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

/-! ## Middle steps -/

/-- The accumulator after a middle step: the step's value over what it held. -/
theorem acc_mid (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S6x1 .f32) (x1 : Vec F S136x4096 .f32) (x2 : Vec F S136x4096 .f32) (x3 : Vec F S3x4096 .f32) (x4 : Vec F S6x4096 .i32) (xs0 : Vec F S1x1 .f32) :
    sout0_B_0 c i arg1 harg1 arg2 harg2 arg3 harg3 arg4 harg4 arg5 harg5 arg6 harg6 arg7 harg7 hc0 hc1 x0 x1 x2 x3 x4 xs0 = k0_pay3 x4 x0 x3 x1 x2 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

/-- The output block after a middle step: a copy of the new accumulator. -/
theorem out_mid (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S6x1 .f32) (x1 : Vec F S136x4096 .f32) (x2 : Vec F S136x4096 .f32) (x3 : Vec F S3x4096 .f32) (x4 : Vec F S6x4096 .i32) (xs0 : Vec F S1x1 .f32) :
    out0_B_5 c i arg1 harg1 arg2 harg2 arg3 harg3 arg4 harg4 arg5 harg5 arg6 harg6 arg7 harg7 hc0 hc1 x0 x1 x2 x3 x4 xs0 = k0_pay3 x4 x0 x3 x1 x2 xs0 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz, View.readCov_unit_zero _ hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

/-! ## The first step -/

/-- The accumulator after the first step: the step's value over the zero the reset stored. -/
theorem acc_first (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S6x1 .f32) (x1 : Vec F S136x4096 .f32) (x2 : Vec F S136x4096 .f32) (x3 : Vec F S3x4096 .f32) (x4 : Vec F S6x4096 .i32) :
    sout0_A_0 c i arg1 harg1 arg2 harg2 arg3 harg3 arg4 harg4 arg5 harg5 arg6 harg6 arg7 harg7 hc0 hc1 x0 x1 x2 x3 x4 = k0_pay3 x4 x0 x3 x1 x2 (k0_pay2 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

/-- The output block after the first step: a copy of the new accumulator. -/
theorem out_first (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S6x1 .f32) (x1 : Vec F S136x4096 .f32) (x2 : Vec F S136x4096 .f32) (x3 : Vec F S3x4096 .f32) (x4 : Vec F S6x4096 .i32) :
    out0_A_5 c i arg1 harg1 arg2 harg2 arg3 harg3 arg4 harg4 arg5 harg5 arg6 harg6 arg7 harg7 hc0 hc1 x0 x1 x2 x3 x4 = k0_pay3 x4 x0 x3 x1 x2 (k0_pay2 (F := F)) := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero hz, readCov_last_whole _ hz, View.readCov_unit_zero (S := S1x1) _ hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

/-! ## The last step -/

/-- The accumulator after the last step: as after a middle step. -/
theorem acc_last (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S6x1 .f32) (x1 : Vec F S136x4096 .f32) (x2 : Vec F S136x4096 .f32) (x3 : Vec F S3x4096 .f32) (x4 : Vec F S6x4096 .i32) (xs0 : Vec F S1x1 .f32) :
    sout0_C_0 c i arg1 harg1 arg2 harg2 arg3 harg3 arg4 harg4 arg5 harg5 arg6 harg6 arg7 harg7 hc0 hc1 x0 x1 x2 x3 x4 xs0 = k0_pay3 x4 x0 x3 x1 x2 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

/-- The output block after the last step: the new accumulator divided by the number of entries. -/
theorem out_last (c : Dev nD) (i : grid0.Coords) (arg1 : Memref sig .tc .vmem S6x1 .f32) (harg1 : arg1.IsWhole) (arg2 : Memref sig .tc .vmem S136x4096 .f32) (harg2 : arg2.IsWhole) (arg3 : Memref sig .tc .vmem S136x4096 .f32) (harg3 : arg3.IsWhole) (arg4 : Memref sig .tc .vmem S3x4096 .f32) (harg4 : arg4.IsWhole) (arg5 : Memref sig .tc .vmem S6x4096 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S6x1 .f32) (x1 : Vec F S136x4096 .f32) (x2 : Vec F S136x4096 .f32) (x3 : Vec F S3x4096 .f32) (x4 : Vec F S6x4096 .i32) (xs0 : Vec F S1x1 .f32) :
    out0_C_5 c i arg1 harg1 arg2 harg2 arg3 harg3 arg4 harg4 arg5 harg5 arg6 harg6 arg7 harg7 hc0 hc1 x0 x1 x2 x3 x4 xs0 = k0_pay1 (k0_pay3 x4 x0 x3 x1 x2 xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_cons_unit_zero (S := S1x1) hz, View.readCov_unit_zero (S := S1x1) _ hz, View.readCov_unit_zero (S := S1x1) _ hz]
  simp only [View.readAt_eq_ld, harg1.read_unread, harg2.read_unread, harg3.read_unread, harg4.read_unread, harg5.read_unread, harg7.read_unread,
    View.ld_unit_zero (S := S6x1) hz, View.ld_unit_zero (S := S136x4096) hz, View.ld_unit_zero (S := S3x4096) hz, View.ld_unit_zero (S := S6x4096) hz, View.ld_unit_zero (S := S1x1) hz]

end Cert.KernelIdeal.Pieces

end
-- ==== Proof.Spec.lean ====
/-
  The mathematics of the weighted squared-error loss, stated once over plain index types.

  A column `b` of the batch carries a weight: the inverse frequencies of the attributes whose flag word is 1,
  summed over the six attributes, times the sum over the three angles of `1 - cos`. The loss is the sum, over every
  feature row `d` and column `b`, of that weight times the squared difference of input and label, divided by the
  number of entries. Sums over the extended reals commute and associate, so the sum over all columns is the sum over
  32 consecutive groups of 4096 columns of each group's own sum, in any order of the rows and columns inside.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- An attribute word read as a number: 1 where the word is 1, else 0 (the bit of the comparison, unsigned). -/
def flag (a : BitVec 32) : EReal := (((IntOp.cmpi .eq a 1#32).toNat : ℝ) : EReal)

/-- The comparison's bit widened to a word and read signed is the same number: a one-bit value widened by zeros
    is 0 or 1, never negative. -/
theorem flag_of_widened (a : BitVec 32) :
    ((((IntOp.cmpi .eq a 1#32).setWidth 32).toInt : ℝ) : EReal) = flag a := by
  unfold flag
  have h : ∀ b : BitVec 1, (b.setWidth 32).toInt = (b.toNat : ℤ) := by decide
  rw [h]
  simp

/-- One column's weight, from its six flag words, the six inverse frequencies and its three angles. -/
def colWeight (a : Fin 6 → BitVec 32) (f : Fin 6 → EReal) (e : Fin 3 → EReal) : EReal :=
  (∑ j : Fin 6, flag (a j) * f j) * (∑ j : Fin 3, (Ideal.ofBits .f32 0x3F800000#32 - Ideal.cos (e j)))

/-- The weighted squared errors summed over all 136 rows and all `C` columns of arrays with `C` columns. -/
def colSum {C : ℕ} (attr : (⟨2, ![6, C]⟩ : Shape).Idx → BitVec 32) (f : Fin 6 → EReal)
    (ea : (⟨2, ![3, C]⟩ : Shape).Idx → EReal) (x y : (⟨2, ![136, C]⟩ : Shape).Idx → EReal) : EReal :=
  ∑ d : Fin 136, ∑ b : Fin C,
    colWeight (fun j => attr (ix2 j b)) f (fun j => ea (ix2 j b))
      * ((x (ix2 d b) - y (ix2 d b)) * (x (ix2 d b) - y (ix2 d b)))

/-- Column `l` of group `t`: groups of 4096 consecutive columns. -/
def col (t : Fin 32) (l : Fin 4096) : Fin 131072 :=
  ⟨t.val * 4096 + l.val, by have := t.isLt; have := l.isLt; omega⟩

/-- Every column is column `l` of group `t` for exactly one pair. -/
def colEquiv : Fin 32 × Fin 4096 ≃ Fin 131072 where
  toFun p := col p.1 p.2
  invFun b := (⟨b.val / 4096, by have := b.isLt; omega⟩, ⟨b.val % 4096, by omega⟩)
  left_inv p := by
    obtain ⟨t, l⟩ := p
    have ht := t.isLt; have hl := l.isLt
    apply Prod.ext <;> apply Fin.ext <;> simp only [col] <;> omega
  right_inv b := by
    apply Fin.ext
    simp only [col]
    omega

/-- A sum over all columns is the sum over the groups of each group's sum. -/
theorem sum_cols {M : Type*} [AddCommMonoid M] (g : Fin 131072 → M) :
    ∑ b : Fin 131072, g b = ∑ t : Fin 32, ∑ l : Fin 4096, g (col t l) := by
  rw [← Equiv.sum_comp colEquiv g, Fintype.sum_prod_type]
  rfl

/-- The whole sum is the sum of the 32 groups' sums, when each group's arrays hold the whole arrays' columns of
    that group. -/
theorem colSum_groups (attr : (⟨2, ![6, 131072]⟩ : Shape).Idx → BitVec 32) (f : Fin 6 → EReal)
    (ea : (⟨2, ![3, 131072]⟩ : Shape).Idx → EReal) (x y : (⟨2, ![136, 131072]⟩ : Shape).Idx → EReal)
    (gattr : Fin 32 → (⟨2, ![6, 4096]⟩ : Shape).Idx → BitVec 32)
    (gea : Fin 32 → (⟨2, ![3, 4096]⟩ : Shape).Idx → EReal)
    (gx gy : Fin 32 → (⟨2, ![136, 4096]⟩ : Shape).Idx → EReal)
    (hattr : ∀ t (j : Fin 6) (l : Fin 4096), gattr t (ix2 j l) = attr (ix2 j (col t l)))
    (hea : ∀ t (j : Fin 3) (l : Fin 4096), gea t (ix2 j l) = ea (ix2 j (col t l)))
    (hx : ∀ t (d : Fin 136) (l : Fin 4096), gx t (ix2 d l) = x (ix2 d (col t l)))
    (hy : ∀ t (d : Fin 136) (l : Fin 4096), gy t (ix2 d l) = y (ix2 d (col t l))) :
    colSum attr f ea x y = ∑ t : Fin 32, colSum (gattr t) f (gea t) (gx t) (gy t) := by
  unfold colSum
  simp only [hattr, hea, hx, hy]
  refine Eq.trans (Finset.sum_congr rfl fun d _ => sum_cols _) ?_
  exact Finset.sum_comm

/-- The loss: the whole sum divided by the number of entries, 136 × 131072 (the word `0x4B880000`). -/
def loss (attr : (⟨2, ![6, 131072]⟩ : Shape).Idx → BitVec 32) (f : Fin 6 → EReal)
    (ea : (⟨2, ![3, 131072]⟩ : Shape).Idx → EReal) (x y : (⟨2, ![136, 131072]⟩ : Shape).Idx → EReal) : EReal :=
  Ideal.div (colSum attr f ea x y) (Ideal.ofBits .f32 0x4B880000#32)

end Cert.Loss

end
-- ==== Proof.BlockSum.lean ====
/-
  What one grid step of the kernel computes, read at the extended reals.

  The step's arithmetic is one term over the step's loads: the six flag words of each column become numbers and are
  weighted by the inverse-frequency column, summed over the six rows; the three angles give `1 - cos`, summed over the
  three rows; the two row vectors are multiplied lane by lane into the column weights; the squared differences of the
  two big blocks are scaled by those weights (one weight row broadcast over the 136 rows), summed along the lanes and
  then over the rows; and the total is added to what the accumulator held. Every reduction here is a finite sum of
  extended reals, every layout change a re-indexing, so the step's value is
  `accumulator + Σ_d Σ_l weight(l) · (x(d,l) - y(d,l))²`. The accumulator's reset stores 0; the last step's extra
  store is the accumulator divided by the number of entries.
-/
import proofs.«166747_j17970143166491_1_alg».proof.Proof.Gen.KernelIdeal.Skeleton
import proofs.«166747_j17970143166491_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Idealize.ShloMosaic Idealize.ShloMosaic.ValueIdx
open Cert.KernelIdeal Cert.KernelIdeal.Gen Cert.Loss

/-! ## Reductions and layout changes of two-axis vectors, read at an index -/

/-- A sum over the rows of an `[R, C]` vector, at lane `l`: the sum of the column's entries. -/
theorem reduce_rows {R C : ℕ} (src : FVec Ideal ⟨2, ![R, C]⟩ .f32)
    (h : (⟨2, ![R, C]⟩ : Shape).Reduces [0] ⟨1, ![C]⟩) (hφ : FKind.Formats .f32)
    (hacc : (0x00000000#32 : BitVec 32) = FKind.add.neutral .f32 hφ) (l : Fin C) :
    multiReduction .add [0] ⟨1, ![C]⟩ src 0x00000000#32 h hφ hacc (ix1 l) = ∑ j : Fin R, src (ix2 j l) := by
  refine (Ideal.multiReduction_add_single src _ h hφ hacc (ix1 l)).trans ?_
  refine Finset.sum_congr rfl fun j _ => ?_
  exact congrArg src (funext fun a => Fin.ext (by match a with | ⟨0, _⟩ => rfl | ⟨1, _⟩ => rfl))

/-- A sum along the lanes of an `[R, C]` vector, at row `d`: the sum of the row's entries. -/
theorem reduce_lanes {R C : ℕ} (src : FVec Ideal ⟨2, ![R, C]⟩ .f32)
    (h : (⟨2, ![R, C]⟩ : Shape).Reduces [1] ⟨1, ![R]⟩) (hφ : FKind.Formats .f32)
    (hacc : (0x00000000#32 : BitVec 32) = FKind.add.neutral .f32 hφ) (d : Fin R) :
    multiReduction .add [1] ⟨1, ![R]⟩ src 0x00000000#32 h hφ hacc (ix1 d) = ∑ l : Fin C, src (ix2 d l) := by
  refine (Ideal.multiReduction_add_single src _ h hφ hacc (ix1 d)).trans ?_
  refine Finset.sum_congr rfl fun l _ => ?_
  exact congrArg src (funext fun a => Fin.ext (by match a with | ⟨0, _⟩ => rfl | ⟨1, _⟩ => rfl))

/-- An `[R]` vector cast to a column `[R, 1]` reads, at `(d, u)`, the operand at `d`. -/
theorem shapeCast_column_apply {α : Type} {R : ℕ} (x : (⟨1, ![R]⟩ : Shape).Idx → α)
    (h : (⟨1, ![R]⟩ : Shape).ShapeCasts ⟨2, ![R, 1]⟩) (d : Fin R) (u : Fin 1) :
    shapeCast ⟨2, ![R, 1]⟩ x h (ix2 d u) = x (ix1 d) :=
  shapeCast_apply x h _ _ (by
    have hu : u.val = 0 := by omega
    rw [Shape.rowMajor_val_two, Shape.rowMajor_val_one]
    show d.val = d.val * 1 + u.val
    rw [hu, Nat.mul_one, Nat.add_zero])

/-- A column `[R, 1]` broadcast along the lanes to `[R, C]` reads, at `(j, l)`, the column's entry `j`. -/
theorem broadcastTo_column_apply {α : Type} {R C : ℕ} (v : (⟨2, ![R, 1]⟩ : Shape).Idx → α)
    (h : (⟨2, ![R, 1]⟩ : Shape).Broadcasts ⟨2, ![R, C]⟩) (j : Fin R) (l : Fin C) :
    broadcastTo ⟨2, ![R, C]⟩ v h (ix2 j l) = v (ix2 j (0 : Fin 1)) := by
  refine broadcastTo_apply v h (ix2 j l) (ix2 j (0 : Fin 1)) fun ax => ?_
  match ax with
  | ⟨0, _⟩ =>
    show j.val = if R = 1 then 0 else j.val
    split
    · have := j.isLt; omega
    · rfl
  | ⟨1, _⟩ => rfl

/-! ## The three stored values -/

/-- The reset stores zero. -/
theorem reset_apply (i : S1x1.Idx) : k0_pay2 (F := Ideal) i = 0 := by
  unfold k0_pay2
  refine (congrFun (shapeCast_self _ _) i).trans ?_
  exact Ideal.ofBits_zero_f32

/-- The last step's extra store: the accumulated value divided by the number of entries. -/
theorem mean_apply (v : Vec Ideal S1x1 .f32) (i : S1x1.Idx) :
    k0_pay1 (F := Ideal) v i = Ideal.div (v i) (Ideal.ofBits .f32 0x4B880000#32) := by
  unfold k0_pay1
  show Ideal.div (shapeCast S1x1 v _ i) _ = _
  rw [shapeCast_self]
  rfl

/-- One step's stored value: what the accumulator held plus the step's weighted squared errors over all rows and
    lanes of its blocks. -/
theorem step_apply (a : Vec Ideal S6x4096 .i32) (f : Vec Ideal S6x1 .f32) (e : Vec Ideal S3x4096 .f32)
    (x y : Vec Ideal S136x4096 .f32) (s : Vec Ideal S1x1 .f32) (p q : Fin 1) :
    k0_pay3 (F := Ideal) a f e x y s (ix2 p q)
      = s (ix2 p q) + colSum a (fun j => f (ix2 j (0 : Fin 1))) e x y := by
  unfold k0_pay3
  dsimp only
  refine (congrFun (shapeCast_self _ _) _).trans ?_
  refine (addf_apply _ _ _).trans ?_
  refine congrArg (s (ix2 p q) + ·) ?_
  refine (shapeCast_a_1a_apply _ _ p q).trans ?_
  refine (reduce_rows _ _ _ _ q).trans ?_
  unfold colSum
  refine Finset.sum_congr rfl fun d _ => ?_
  refine (shapeCast_column_apply _ _ d q).trans ?_
  refine (reduce_lanes _ _ _ _ d).trans ?_
  refine Finset.sum_congr rfl fun l _ => ?_
  refine (mulf_apply _ _ _).trans ?_
  refine congrArg₂ (· * ·) ?_ rfl
  refine (broadcastTo_1b_ab_apply _ _ d l).trans ?_
  refine (mulf_apply _ _ _).trans ?_
  unfold colWeight
  refine congrArg₂ (· * ·) ?_ ?_
  · refine (shapeCast_a_1a_apply _ _ (0 : Fin 1) l).trans ?_
    refine (reduce_rows _ _ _ _ l).trans ?_
    refine Finset.sum_congr rfl fun j _ => ?_
    refine (mulf_apply _ _ _).trans ?_
    refine congrArg₂ (· * ·) (flag_of_widened _) ?_
    refine (broadcastTo_column_apply _ _ j l).trans ?_
    exact congrFun (shapeCast_self f _) _
  · refine (shapeCast_a_1a_apply _ _ (0 : Fin 1) l).trans ?_
    refine (reduce_rows _ _ _ _ l).trans ?_
    exact Finset.sum_congr rfl fun j _ => rfl

end Cert.KernelIdeal.Body

end
-- ==== Proof.KernelResult.lean ====
/-
  What the kernel's program leaves in its result, at the extended reals.

  The accumulator after grid step `n` is the sum of the first `n + 1` steps' weighted squared errors (induction on
  the step: the first step adds its sum to the zero the reset stored, every later step adds its sum to what the step
  before left). The output block is written back once, after the last step, holding the accumulator divided by the
  number of entries; its one block is the whole one-element array, and the final reshape only drops the two unit axes.
  Step `t`'s blocks are columns `4096·t … 4096·t + 4095` of the argument arrays (all rows), and the inverse-frequency
  column is the same at every step, so the 32 step sums together are the sum over all rows and all columns.
-/
import proofs.«166747_j17970143166491_1_alg».proof.Proof.Gen.KernelIdeal.Frame
import proofs.«166747_j17970143166491_1_alg».proof.Proof.Pieces
import proofs.«166747_j17970143166491_1_alg».proof.Proof.BlockSum
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.Loss

variable (m : (ℓ : Loc nD τ sig) → Buf (Elt Ideal) ℓ) (ρ : Dev nD → PrngReg)

/-! ## A step's blocks, at their literal shapes -/

abbrev fblk (c : Dev nD) (t : Fin cfg0.N) : Vec Ideal S6x1 .f32 := iblk m c 0 t
abbrev xblk (c : Dev nD) (t : Fin cfg0.N) : Vec Ideal S136x4096 .f32 := iblk m c 1 t
abbrev yblk (c : Dev nD) (t : Fin cfg0.N) : Vec Ideal S136x4096 .f32 := iblk m c 2 t
abbrev eblk (c : Dev nD) (t : Fin cfg0.N) : Vec Ideal S3x4096 .f32 := iblk m c 3 t
abbrev ablk (c : Dev nD) (t : Fin cfg0.N) : Vec Ideal S6x4096 .i32 := iblk m c 4 t

/-! ## What a step leaves, by its place in the grid -/

/-- After the first step the accumulator holds the step's value over the reset's zero. -/
theorem acc_first_at (c : Dev nD) (t : Fin cfg0.N) (h0 : t.val % 32 = 0) (h1 : ¬t.val % 32 = 31) :
    (outsAt0 m c t.val t.isLt).2 = k0_pay3 (ablk m c t) (fblk m c t) (eblk m c t) (xblk m c t) (yblk m c t) (k0_pay2 (F := Ideal)) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After a middle step it holds the step's value over what the step before left. -/
theorem acc_mid_at (c : Dev nD) (t : Fin cfg0.N) (h0 : ¬t.val % 32 = 0) (h1 : ¬t.val % 32 = 31) :
    (outsAt0 m c t.val t.isLt).2 = k0_pay3 (ablk m c t) (fblk m c t) (eblk m c t) (xblk m c t) (yblk m c t) (outsAt0 m c (t.val - 1) (Nat.lt_of_le_of_lt (Nat.sub_le _ _) t.isLt)).2 := by
  rw [outsAt0_B m c t h0 h1]
  dsimp only
  exact Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After the last step likewise; -/
theorem acc_last_at (c : Dev nD) (t : Fin cfg0.N) (h0 : ¬t.val % 32 = 0) (h1 : t.val % 32 = 31) :
    (outsAt0 m c t.val t.isLt).2 = k0_pay3 (ablk m c t) (fblk m c t) (eblk m c t) (xblk m c t) (yblk m c t) (outsAt0 m c (t.val - 1) (Nat.lt_of_le_of_lt (Nat.sub_le _ _) t.isLt)).2 := by
  rw [outsAt0_C m c t h0 h1]
  dsimp only
  exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output block then holds that value divided by the number of entries. -/
theorem out_last_at (c : Dev nD) (t : Fin cfg0.N) (h0 : ¬t.val % 32 = 0) (h1 : t.val % 32 = 31) :
    (outsAt0 m c t.val t.isLt).1 = k0_pay1 (k0_pay3 (ablk m c t) (fblk m c t) (eblk m c t) (xblk m c t) (yblk m c t) (outsAt0 m c (t.val - 1) (Nat.lt_of_le_of_lt (Nat.sub_le _ _) t.isLt)).2) := by
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-! ## The accumulator is the running sum -/

/-- Step `n`'s weighted squared errors over its blocks (zero past the grid). -/
def stepSum (c : Dev nD) (n : ℕ) : EReal :=
  if h : n < cfg0.N then
    colSum (ablk m c ⟨n, h⟩) (fun j => fblk m c ⟨n, h⟩ (ix2 j (0 : Fin 1))) (eblk m c ⟨n, h⟩) (xblk m c ⟨n, h⟩) (yblk m c ⟨n, h⟩)
  else 0

/-- The sum of steps `0 … n`. -/
def running (c : Dev nD) (n : ℕ) : EReal := ∑ s ∈ Finset.range (n + 1), stepSum m c s

theorem step_at (c : Dev nD) (t : Fin cfg0.N) (s : Vec Ideal S1x1 .f32) (i : S1x1.Idx) :
    k0_pay3 (ablk m c t) (fblk m c t) (eblk m c t) (xblk m c t) (yblk m c t) s i = s i + stepSum m c t.val := by
  obtain ⟨p, q, rfl⟩ : ∃ (p q : Fin 1), i = ix2 p q := ⟨i 0, i 1, eq_ix2 i⟩
  refine (Body.step_apply (ablk m c t) (fblk m c t) (eblk m c t) (xblk m c t) (yblk m c t) s p q).trans ?_
  unfold stepSum
  rw [dif_pos t.isLt]

/-- After step `n` the accumulator holds the running sum. -/
theorem acc_eq (c : Dev nD) : ∀ (n : ℕ) (hn : n < cfg0.N), (outsAt0 m c n hn).2 = fun _ => running m c n
  | 0, hn => by
    refine (acc_first_at m c ⟨0, hn⟩ rfl (by show ¬(0 : ℕ) % 32 = 31; decide)).trans ?_
    funext i
    rw [step_at m c ⟨0, hn⟩ (k0_pay2 (F := Ideal)) i, Body.reset_apply, zero_add]
    show stepSum m c 0 = ∑ s ∈ Finset.range (0 + 1), stepSum m c s
    rw [Finset.sum_range_one]
  | n + 1, hn => by
    have hN : cfg0.N = 32 := N_0
    have h0 : ¬(⟨n + 1, hn⟩ : Fin cfg0.N).val % 32 = 0 := by dsimp only; omega
    have ih : (outsAt0 m c ((⟨n + 1, hn⟩ : Fin cfg0.N).val - 1)
        (Nat.lt_of_le_of_lt (Nat.sub_le _ _) (⟨n + 1, hn⟩ : Fin cfg0.N).isLt)).2 = fun _ => running m c n :=
      acc_eq c n (Nat.lt_of_succ_lt hn)
    have key : (outsAt0 m c (n + 1) hn).2 = k0_pay3 (ablk m c ⟨n + 1, hn⟩) (fblk m c ⟨n + 1, hn⟩) (eblk m c ⟨n + 1, hn⟩) (xblk m c ⟨n + 1, hn⟩) (yblk m c ⟨n + 1, hn⟩) (fun _ => running m c n) := by
      by_cases h1 : (⟨n + 1, hn⟩ : Fin cfg0.N).val % 32 = 31
      · exact (acc_last_at m c ⟨n + 1, hn⟩ h0 h1).trans (by rw [ih])
      · exact (acc_mid_at m c ⟨n + 1, hn⟩ h0 h1).trans (by rw [ih])
    rw [key]
    funext i
    rw [step_at m c ⟨n + 1, hn⟩ _ i]
    show running m c n + stepSum m c (n + 1) = running m c (n + 1)
    unfold running
    rw [Finset.sum_range_succ _ (n + 1)]

/-! ## The one write-back and the result array -/

/-- The last grid point. -/
abbrev tLast : Fin cfg0.N := ⟨31, by rw [show cfg0.N = 32 from N_0]; decide⟩

/-- The value the kernel ends with: the sum of all 32 steps divided by the number of entries. -/
def meanVal (c : Dev nD) : EReal := Ideal.div (running m c 31) (Ideal.ofBits .f32 0x4B880000#32)

/-- The output block after the last step. -/
theorem out_final (c : Dev nD) : (outsAt0 m c tLast.val tLast.isLt).1 = fun _ => meanVal m c := by
  refine (out_last_at m c tLast (by show ¬(31 : ℕ) % 32 = 0; decide) rfl).trans ?_
  have ih : (outsAt0 m c (tLast.val - 1) (Nat.lt_of_le_of_lt (Nat.sub_le _ _) tLast.isLt)).2 = fun _ => running m c 30 :=
    acc_eq m c 30 _
  rw [ih]
  funext i
  rw [Body.mean_apply, step_at m c tLast _ i]
  show Ideal.div (running m c 30 + stepSum m c 31) _ = Ideal.div (running m c 31) _
  unfold running
  rw [Finset.sum_range_succ _ 31]

/-- The result array's contents: one element, the mean. -/
abbrev result (c : Dev nD) : Buf (Elt Ideal) ((c : Thread nD τ).loc main_v4) := fun _ => meanVal m c

/-- The write-back happens at the last point only, and writes the mean. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [after0_5, out_final]
  funext y
  rw [View.read_apply]
  rfl

/-- The last point's block is the whole one-element array, so the array ends holding the mean. -/
theorem final (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v4).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 1 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [show win0_5.index tLast 1 * win0_5.size 1 = 0 from by decide +kernel, show win0_5.xsize (grid0.coords tLast) 1 = 1 from by decide +kernel]; omega⟩

end Cert.KernelIdeal.Result

end
-- ==== Proof.KernelRun.lean ====
/-
  The kernel's program as a whole, at the extended reals: its result is the loss of `Spec.lean` over its arguments.

  Before the grid the program computes the inverse frequencies (the sum of the counts divided by each count) and lays
  them out as a column; the grid's 32 steps each read that column whole and the columns `4096·t … 4096·t + 4095` of the
  other four arrays; after the grid the one-element result array is reshaped to a scalar. So the 32 step sums are the
  32 groups of the whole sum, and the result is the whole sum divided by the number of entries.
-/
import proofs.«166747_j17970143166491_1_alg».proof.Proof.KernelResult

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.Loss

variable (m : (ℓ : Loc nD τ sig) → Buf (Elt Ideal) ℓ) (ρ : Dev nD → PrngReg)

/-! ## Which block each step reads -/

theorem idx_f : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_x : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_y : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx_e : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem idx_a : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)

/-! ## A step's blocks are columns of the argument arrays -/

theorem xblk_apply (c : Dev nD) (t : Fin cfg0.N) (d : Fin 136) (l : Fin 4096) (b : Fin 131072) (hb : b.val = t.val * 4096 + l.val) :
    xblk m c t (ix2 d l) = m ((c : Thread nD τ).loc main_arg0) (ix2 d b) := by
  show iblk m c 1 t (ix2 d l) = _
  unfold iblk
  rw [View.read_apply]
  show V m c main_arg0 (((cfg0.win 1).blk t).view.emb (ix2 d l)) = _
  rw [V_main_arg0]
  refine congrArg _ (funext fun a => Fin.ext ?_)
  match a with
  | ⟨0, _⟩ => show win0_1.index t 0 * 136 + 1 * d.val = d.val; rw [(idx_x t).1]; omega
  | ⟨1, _⟩ => show win0_1.index t 1 * 4096 + 1 * l.val = b.val; rw [(idx_x t).2, hb]; omega

theorem yblk_apply (c : Dev nD) (t : Fin cfg0.N) (d : Fin 136) (l : Fin 4096) (b : Fin 131072) (hb : b.val = t.val * 4096 + l.val) :
    yblk m c t (ix2 d l) = m ((c : Thread nD τ).loc main_arg1) (ix2 d b) := by
  show iblk m c 2 t (ix2 d l) = _
  unfold iblk
  rw [View.read_apply]
  show V m c main_arg1 (((cfg0.win 2).blk t).view.emb (ix2 d l)) = _
  rw [V_main_arg1]
  refine congrArg _ (funext fun a => Fin.ext ?_)
  match a with
  | ⟨0, _⟩ => show win0_2.index t 0 * 136 + 1 * d.val = d.val; rw [(idx_y t).1]; omega
  | ⟨1, _⟩ => show win0_2.index t 1 * 4096 + 1 * l.val = b.val; rw [(idx_y t).2, hb]; omega

theorem eblk_apply (c : Dev nD) (t : Fin cfg0.N) (d : Fin 3) (l : Fin 4096) (b : Fin 131072) (hb : b.val = t.val * 4096 + l.val) :
    eblk m c t (ix2 d l) = m ((c : Thread nD τ).loc main_arg2) (ix2 d b) := by
  show iblk m c 3 t (ix2 d l) = _
  unfold iblk
  rw [View.read_apply]
  show V m c main_arg2 (((cfg0.win 3).blk t).view.emb (ix2 d l)) = _
  rw [V_main_arg2]
  refine congrArg _ (funext fun a => Fin.ext ?_)
  match a with
  | ⟨0, _⟩ => show win0_3.index t 0 * 3 + 1 * d.val = d.val; rw [(idx_e t).1]; omega
  | ⟨1, _⟩ => show win0_3.index t 1 * 4096 + 1 * l.val = b.val; rw [(idx_e t).2, hb]; omega

theorem ablk_apply (c : Dev nD) (t : Fin cfg0.N) (d : Fin 6) (l : Fin 4096) (b : Fin 131072) (hb : b.val = t.val * 4096 + l.val) :
    ablk m c t (ix2 d l) = m ((c : Thread nD τ).loc main_arg3) (ix2 d b) := by
  show iblk m c 4 t (ix2 d l) = _
  unfold iblk
  rw [View.read_apply]
  show V m c main_arg3 (((cfg0.win 4).blk t).view.emb (ix2 d l)) = _
  rw [V_main_arg3]
  refine congrArg _ (funext fun a => Fin.ext ?_)
  match a with
  | ⟨0, _⟩ => show win0_4.index t 0 * 6 + 1 * d.val = d.val; rw [(idx_a t).1]; omega
  | ⟨1, _⟩ => show win0_4.index t 1 * 4096 + 1 * l.val = b.val; rw [(idx_a t).2, hb]; omega

/-! ## The inverse frequencies -/

/-- The inverse frequencies as the host lines before the grid compute them: the counts' sum (from a zero) divided by
    each count. -/
abbrev invf (c : Dev nD) : FVec Ideal S6 .f32 :=
  Host.divf (broadcastInDim S6 ![] bcast_S_S6 (Host.reduceAdd (m ((c : Thread nD τ).loc main_arg4))
    (constant S_ .f32 0x00000000#32) reducesTo_S6_S_d0 h_S_)) (m ((c : Thread nD τ).loc main_arg4))

/-- The grid finds them laid out as a column. -/
theorem V_invf (c : Dev nD) : (V m c main_v3 : S6x1.Idx → EReal) = shapeCast S6x1 (invf m c) shapeCasts_S6_S6x1 := by
  show StableHlo.after hostOps0 (fun b => m (c, b)) (Proc.devRef .tc main_v3) = _
  after_results
  rfl

/-- Every step reads the whole column. -/
theorem fblk_apply (c : Dev nD) (t : Fin cfg0.N) (j : Fin 6) :
    fblk m c t (ix2 j (0 : Fin 1)) = invf m c (ix1 j) := by
  show iblk m c 0 t (ix2 j (0 : Fin 1)) = _
  unfold iblk
  rw [View.read_apply]
  show V m c main_v3 (((cfg0.win 0).blk t).view.emb (ix2 j (0 : Fin 1))) = _
  rw [V_invf]
  refine Eq.trans (congrArg _ (funext fun a => Fin.ext ?_)) (Body.shapeCast_column_apply (invf m c) shapeCasts_S6_S6x1 j (0 : Fin 1))
  match a with
  | ⟨0, _⟩ => show win0_0.index t 0 * 6 + 1 * j.val = j.val; rw [(idx_f t).1]; omega
  | ⟨1, _⟩ => show win0_0.index t 1 * 1 + 1 * 0 = 0; rw [(idx_f t).2]

/-! ## The 32 step sums are the whole sum -/

/-- Grid point `s`. -/
def pt (s : Fin 32) : Fin cfg0.N := ⟨s.val, lt_of_lt_of_eq s.isLt N_0.symm⟩

theorem running_all (c : Dev nD) :
    running m c 31 = colSum (m ((c : Thread nD τ).loc main_arg3)) (fun j => invf m c (ix1 j))
      (m ((c : Thread nD τ).loc main_arg2)) (m ((c : Thread nD τ).loc main_arg0)) (m ((c : Thread nD τ).loc main_arg1)) := by
  rw [colSum_groups (m ((c : Thread nD τ).loc main_arg3)) (fun j => invf m c (ix1 j))
    (m ((c : Thread nD τ).loc main_arg2)) (m ((c : Thread nD τ).loc main_arg0)) (m ((c : Thread nD τ).loc main_arg1))
    (fun s => ablk m c (pt s)) (fun s => eblk m c (pt s)) (fun s => xblk m c (pt s)) (fun s => yblk m c (pt s))
    (fun s j l => ablk_apply m c (pt s) j l (col s l) rfl) (fun s j l => eblk_apply m c (pt s) j l (col s l) rfl)
    (fun s d l => xblk_apply m c (pt s) d l (col s l) rfl) (fun s d l => yblk_apply m c (pt s) d l (col s l) rfl)]
  show ∑ s ∈ Finset.range 32, stepSum m c s = _
  rw [Finset.sum_range]
  refine Finset.sum_congr rfl fun s _ => ?_
  unfold stepSum
  rw [dif_pos (show s.val < cfg0.N from (pt s).isLt)]
  exact congrArg (fun f => colSum (ablk m c (pt s)) f (eblk m c (pt s)) (xblk m c (pt s)) (yblk m c (pt s)))
    (funext fun j => fblk_apply m c (pt s) j)

/-- The kernel's value is the loss. -/
theorem meanVal_eq (c : Dev nD) :
    meanVal m c = loss (m ((c : Thread nD τ).loc main_arg3)) (fun j => invf m c (ix1 j))
      (m ((c : Thread nD τ).loc main_arg2)) (m ((c : Thread nD τ).loc main_arg0)) (m ((c : Thread nD τ).loc main_arg1)) := by
  unfold meanVal loss
  rw [running_all]

/-! ## After the grid, and the run -/

/-- The final reshape of the one-element array to a scalar keeps its element. -/
theorem tail_eq (c : Dev nD) :
    Pipeline.afterTail₀ cfgs (dats m) 0 (V0 m) [hostOps1] c main_v5 = fun _ => meanVal m c := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4) = result m c :=
    (Pipeline.withArrays_arr spec0 launch0.win.arr_inj c _ _ 5).trans (final m c)
  rw [hw]
  rfl

/-- At the extended reals, from any memory with zero counters, every weakly fair execution of the kernel's program
    ends with its result at the loss's value and its arguments unchanged. -/
theorem run : θ_run defs (onTc (τ := τ) (main (F := Ideal))) ⟨m, fun _ => 0, ρ⟩ fun r => ∀ c : Dev nD,
      r.2.mem ((c.tc : Thread nD τ).loc main_v5) = (fun _ => meanVal m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefResult.lean ====
/-
  What the reference computes, at the extended reals: the loss of `Spec.lean`.

  The reference builds the per-column weight for all 131072 columns at once (the flags times the inverse frequencies
  summed over the six attribute rows, times the summed `1 - cos` of the three angle rows; each host sum starts from a
  zero), broadcasts it over the 136 feature rows, multiplies by the squared differences, sums every entry from a
  zero and divides by the number of entries. Read entry by entry this is the loss, the two zeros dropped.
-/
import proofs.«166747_j17970143166491_1_alg».proof.Proof.Gen.ReferenceIdeal.Read
import proofs.«166747_j17970143166491_1_alg».proof.Proof.Spec
import Idealize.ShloMosaic.Lib.ValueIdx
import Idealize.ShloMosaic.PureOps.Ideal.Laws

noncomputable section

namespace Cert.ReferenceIdeal.RefResult

open Idealize.ShloMosaic Idealize.ShloMosaic.ValueIdx
open Cert.ReferenceIdeal Cert.ReferenceIdeal.Gen Cert.ReferenceIdeal.Read Cert.Loss

/-! ## The composed index maps, on coordinates -/

theorem idx_attr (b : Fin 131072) (k : Fin 6) : idx_main_v9 (ix1 b) k = ix2 k b :=
  funext fun a => Fin.ext (by match a with | ⟨0, _⟩ => rfl | ⟨1, _⟩ => rfl)

theorem idx_angle (b : Fin 131072) (k : Fin 3) : idx_main_v13 (ix1 b) k = ix2 k b :=
  funext fun a => Fin.ext (by match a with | ⟨0, _⟩ => rfl | ⟨1, _⟩ => rfl)

theorem idx_freq (k : Fin 6) (b : Fin 131072) : idx_main_v6 (idx_main_v7 (ix2 k b)) = ix1 k :=
  funext fun a => Fin.ext (by match a with | ⟨0, _⟩ => rfl)

theorem idx_weight (d : Fin 136) (b : Fin 131072) : idx_main_v15 (idx_main_v18 (ix2 d b)) = ix1 b :=
  funext fun a => Fin.ext (by match a with | ⟨0, _⟩ => rfl)

/-! ## The weight row and the result -/

/-- The reference's weight of column `b`. -/
theorem weight_apply (x2 : (⟨S3x131072, .f32⟩ : BufTy).Contents (Elt Ideal)) (x3 : (⟨S6x131072, .i32⟩ : BufTy).Contents (Elt Ideal))
    (x4 : (⟨S6, .f32⟩ : BufTy).Contents (Elt Ideal)) (b : Fin 131072) :
    val_main_v14 (F := Ideal) x2 x3 x4 (ix1 b)
      = colWeight (fun j => x3 (ix2 j b)) (fun j => val_main_v2 (F := Ideal) x4 (ix1 j)) (fun j => x2 (ix2 j b)) := by
  rw [val_main_v14_apply, val_main_v9_apply, val_main_v13_apply]
  simp only [val_main_v8_apply, val_main_v5_apply, val_main_v4_apply, val_main_v3_apply, val_main_c_apply,
    val_main_v7_apply, val_main_v6_apply, val_main_v12_apply, val_main_v11_apply, val_main_cst_1_apply,
    val_main_v10_apply, val_main_cst_0_apply, val_main_cst_2_apply, idx_attr, idx_angle, idx_freq,
    Ideal.ofBits_def, Ideal.ofBits_zero_f32, zero_add]
  rfl

/-- One entry of the weighted squared errors. -/
theorem term_apply (x0 x1 : (⟨S136x131072, .f32⟩ : BufTy).Contents (Elt Ideal)) (x2 : (⟨S3x131072, .f32⟩ : BufTy).Contents (Elt Ideal))
    (x3 : (⟨S6x131072, .i32⟩ : BufTy).Contents (Elt Ideal)) (x4 : (⟨S6, .f32⟩ : BufTy).Contents (Elt Ideal))
    (d : Fin 136) (b : Fin 131072) :
    val_main_v19 (F := Ideal) x0 x1 x2 x3 x4 (ix2 d b)
      = colWeight (fun j => x3 (ix2 j b)) (fun j => val_main_v2 (F := Ideal) x4 (ix1 j)) (fun j => x2 (ix2 j b))
        * ((x0 (ix2 d b) - x1 (ix2 d b)) * (x0 (ix2 d b) - x1 (ix2 d b))) := by
  rw [val_main_v19_apply, val_main_v18_apply, val_main_v15_apply, idx_weight, weight_apply, val_main_v17_apply,
    val_main_v16_apply]
  rfl

/-- The reference's result is the loss. -/
theorem result_eq (x0 x1 : (⟨S136x131072, .f32⟩ : BufTy).Contents (Elt Ideal)) (x2 : (⟨S3x131072, .f32⟩ : BufTy).Contents (Elt Ideal))
    (x3 : (⟨S6x131072, .i32⟩ : BufTy).Contents (Elt Ideal)) (x4 : (⟨S6, .f32⟩ : BufTy).Contents (Elt Ideal)) :
    val_main_v21 (F := Ideal) x0 x1 x2 x3 x4
      = fun _ => loss x3 (fun j => val_main_v2 (F := Ideal) x4 (ix1 j)) x2 x0 x1 := by
  funext i
  rw [val_main_v21_apply, val_main_v20_apply, val_main_cst_3_apply, val_main_cst_4_apply]
  unfold loss colSum
  refine congrArg₂ Ideal.div ?_ rfl
  refine (congrArg₂ (· + ·) Ideal.ofBits_zero_f32 (sum_idx2 _)).trans ?_
  rw [zero_add]
  exact Finset.sum_congr rfl fun d _ => Finset.sum_congr rfl fun b _ => term_apply x0 x1 x2 x3 x4 d b

end Cert.ReferenceIdeal.RefResult

end
-- ==== Proof.lean ====
/-
  The weighted squared-error loss: a kernel that accumulates it over 32 groups of 4096 batch columns, against the
  reference that takes the mean over the whole [136, 131072] array at once.

  Both programs give a batch column the weight (Σ_j [attribute_j = 1] · inv_freq_j) · (Σ_k (1 - cos angle_k)), with
  inv_freq = (Σ counts) / counts computed by the same host lines, multiply it into the squared difference of input
  and label on each of the 136 feature rows, add everything up and divide by 136 · 131072 (the same f32 word in
  both). At the extended reals every operation is the exact one, the kernel's compare-widen-convert and the
  reference's compare-convert of the flag are the same 0 or 1, and addition is commutative and associative, so
  summing group by group, rows inside lanes inside groups, is summing over all entries: the two results are equal
  without any use of the inputs' finiteness.

  The kernel's side: the accumulator after step n is the sum of the first n + 1 group sums (Proof/KernelResult.lean,
  over the values each control case leaves, Proof/Pieces.lean, and one step's arithmetic, Proof/BlockSum.lean); the
  single write-back after the last step and the closing reshape leave the mean (Proof/KernelRun.lean). The
  reference's side: its run read entry by entry (Proof/RefResult.lean). The shared mathematics is Proof/Spec.lean.
  The three frames are the programs' runs with the result dropped; the idealization rewrote nothing.
-/
import proofs.«166747_j17970143166491_1_alg».proof.Defs
import proofs.«166747_j17970143166491_1_alg».proof.Proof.Gen.Kernel
import proofs.«166747_j17970143166491_1_alg».proof.Proof.Gen.Kernel.Skeleton
import proofs.«166747_j17970143166491_1_alg».proof.Proof.Gen.Kernel.Launch
import proofs.«166747_j17970143166491_1_alg».proof.Proof.Gen.Kernel.Points
import proofs.«166747_j17970143166491_1_alg».proof.Proof.Gen.Kernel.Frame
import proofs.«166747_j17970143166491_1_alg».proof.Proof.Gen.KernelIdeal
import proofs.«166747_j17970143166491_1_alg».proof.Proof.Gen.KernelIdeal.Skeleton
import proofs.«166747_j17970143166491_1_alg».proof.Proof.Gen.KernelIdeal.Launch
import proofs.«166747_j17970143166491_1_alg».proof.Proof.Gen.KernelIdeal.Points
import proofs.«166747_j17970143166491_1_alg».proof.Proof.Gen.KernelIdeal.Frame
import proofs.«166747_j17970143166491_1_alg».proof.Proof.Gen.ReferenceIdeal
import proofs.«166747_j17970143166491_1_alg».proof.Proof.Gen.ReferenceIdeal.Run
import proofs.«166747_j17970143166491_1_alg».proof.Proof.Gen.ReferenceIdeal.Read
import proofs.«166747_j17970143166491_1_alg».proof.Proof.Gen.Pre_finite_inputs
import proofs.«166747_j17970143166491_1_alg».proof.Proof.KernelRun
import proofs.«166747_j17970143166491_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the loss of those arguments: the kernel's running
    sum over the 32 groups divided by the count, the reference's sum over all entries divided by the count. The
    inverse frequencies are the same host term of the counts on both sides. -/
theorem algebraic : Cert.algebraic_KernelIdeal_ReferenceIdeal := by
  intro m ρ m' ρ' _ hagree
  refine ⟨fun c => fun _ => Cert.KernelIdeal.Result.meanVal m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefResult.result_eq,
    (hagree c).1, (hagree c).2.1, (hagree c).2.2.1, (hagree c).2.2.2.1, (hagree c).2.2.2.2]
  show _ = fun _ => Cert.KernelIdeal.Result.meanVal m c
  rw [Cert.KernelIdeal.Result.meanVal_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
